-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S1000000 .f32) (main_arg2 : FVec F S64x64 .f32) (main_arg3 : IVec S1000000 32) (main_arg4 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1000000 : Shape := ⟨1, ![1000000]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 22
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S64x64, .f32⟩
  | .hbm, ⟨3, _⟩ => ⟨S1000000, .i32⟩
  | .hbm, ⟨4, _⟩ => ⟨S1000000, .i32⟩
  | .hbm, ⟨5, _⟩ => ⟨S1000000x1, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S_, .f32⟩
  | .hbm, ⟨18, _⟩ => ⟨S100000x64, .f32⟩
  | .hbm, ⟨19, _⟩ => ⟨S1000000x1, .i32⟩
  | .hbm, ⟨20, _⟩ => ⟨S100000x64, .f32⟩
  | .hbm, ⟨21, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S5000x64_S5000 : S5000x64.Reduces [1] S5000
  shapeCasts_S5000_S5000x1 : S5000.ShapeCasts S5000x1
  broadcasts_S5000x1_S5000x64 : S5000x1.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S100000 : Shape := ⟨1, ![100000]⟩
abbrev S100000x1 : Shape := ⟨2, ![100000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S64x64, .f32⟩
  | .hbm, ⟨3, _⟩ => ⟨S1000000, .i32⟩
  | .hbm, ⟨4, _⟩ => ⟨S1000000, .i32⟩
  | .hbm, ⟨5, _⟩ => ⟨S1000000x1, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x64, .f32⟩
  | .hbm, ⟨16, _⟩ => ⟨S1000000x64, .f32⟩
  | .hbm, ⟨17, _⟩ => ⟨S_, .f32⟩
  | .hbm, ⟨18, _⟩ => ⟨S100000x64, .f32⟩
  | .hbm, ⟨19, _⟩ => ⟨S1000000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RowSpec.lean ====
/-
  One output row of the dense stage as a function of one row of the aggregated node features and of the weight
  matrix: the row times the matrix, divided by the larger of the product row's Euclidean norm and a small positive
  floor, with negative entries then set to zero.  Entry `(r, j)` of the whole result reads row `r` of the
  aggregate only, so a block of rows of the result is the same function of the same block of rows of the aggregate.
-/
import Idealize.ShloMosaic.PureOps.Ideal
import Idealize.ShloMosaic.Lib.ValueIdx

noncomputable section

namespace Cert.RowSpec

open Idealize.ShloMosaic Idealize.ShloMosaic.ValueIdx

/-- The weight matrix's shape and the aggregate's. -/
abbrev SW : Shape := ⟨2, ![64, 64]⟩
abbrev SA : Shape := ⟨2, ![100000, 64]⟩

/-- Entry `j` of a row times the weight matrix: `∑ k, row k · w (k, j)`. -/
def rowProd (row : Fin 64 → EReal) (w : SW.Idx → EReal) (j : Fin 64) : EReal :=
  ∑ k : Fin 64, row k * w (ix2 k j)

/-- The row's divisor: the larger of the Euclidean norm of the product row and the floor (the word of `f32 1e-12`). -/
def rowScale (row : Fin 64 → EReal) (w : SW.Idx → EReal) : EReal :=
  max (Ideal.sqrt (∑ j : Fin 64, rowProd row w j * rowProd row w j)) (Ideal.ofBits .f32 0x2B8CBCCC#32)

/-- Entry `j` of the normalised row, negative values replaced by zero. -/
def rowOut (row : Fin 64 → EReal) (w : SW.Idx → EReal) (j : Fin 64) : EReal :=
  max (Ideal.div (rowProd row w j) (rowScale row w)) (Ideal.ofBits .f32 0x00000000#32)

/-- The whole result: entry `(r, j)` from row `r` of the aggregate `a`. -/
def dense (a : SA.Idx → EReal) (w : SW.Idx → EReal) : SA.Idx → EReal :=
  fun i => rowOut (fun k => a (ix2 (i 0) k)) w (i 1)

theorem dense_apply (a : SA.Idx → EReal) (w : SW.Idx → EReal) (r : Fin 100000) (j : Fin 64) :
    dense a w (ix2 r j) = rowOut (fun k => a (ix2 r k)) w j := rfl

end Cert.RowSpec

end
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.KernelRow.lean ====
/-
  What the kernel body stores, read at one entry.  The body multiplies its block of 5000 aggregate rows by the
  weight matrix (the narrowing of both operands to sixteen bits is the identity on exact values, and the product is
  accumulated into zeros), squares the product and sums each row, takes the square root, floors it, divides every row
  of the product by its floored norm and replaces negative entries by zero.  Entry `(p, q)` of the stored block is
  therefore `RowSpec.rowOut` of row `p` of the loaded block: it reads no other row.
-/
import proofs.«175908_j11562051961573_1_alg».proof.Proof.Gen.KernelIdeal.Skeleton
import proofs.«175908_j11562051961573_1_alg».proof.Proof.RowSpec
import proofs.«175908_j11562051961573_1_alg».proof.Proof.LibColumnForms
import Idealize.ShloMosaic.PureOps.Ideal.Laws
import Idealize.ShloMosaic.Lib.ValueIdx
import Idealize.ShloMosaic.Lib.Pipeline.Value

noncomputable section

namespace Cert.KernelIdeal.RowValue

open Cert.KernelIdeal Cert.KernelIdeal.Gen Idealize.ShloMosaic Idealize.ShloMosaic.ValueIdx
open Cert.RowSpec Cert.LibColumnForms

/-! ## The block product read at an entry -/

/-- Output axis 0 is the left operand's row axis. -/
theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column axis is the contracted one. -/
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row axis is the contracted one. -/
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Output axis 1 is the right operand's column axis. -/
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's product block: the loaded rows times the loaded weights, accumulated into zeros. -/
def prodBlk (x0 : FVec Ideal S5000x64 .f32) (x1 : FVec Ideal S64x64 .f32) : FVec Ideal S5000x64 .f32 :=
  matmul dot_S5000x64_S64x64_S5000x64_1_0_0_1_n_n none
    (truncf .bf16 (shapeCast S5000x64 x0 shapeCasts_S5000x64_S5000x64) bitsLt_bf16_f32)
    (truncf .bf16 x1 bitsLt_bf16_f32) (constant (F := Ideal) S5000x64 .f32 0x00000000#32)

/-- Entry `(p, j)` of the product block is row `p` of the loaded block times column `j` of the weights. -/
theorem prodBlk_apply (x0 : FVec Ideal S5000x64 .f32) (x1 : FVec Ideal S64x64 .f32) (p : Fin 5000) (j : Fin 64) :
    prodBlk x0 x1 (ix2 p j) = rowProd (fun k => x0 (ix2 p k)) x1 j := by
  unfold prodBlk
  simp only [matmul]
  rw [Ideal.matmul_constant_zero_apply, ← Equiv.sum_comp (contrEquiv1 dot_S5000x64_S64x64_S5000x64_1_0_0_1_n_n 64 rfl rfl).symm]
  unfold rowProd
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhs_blk_0 _ _).trans hk
    | ⟨1, _⟩ => exact rhs_blk_1 _ _)
  rw [el, er, shapeCast_self]
  rfl

/-! ## The divisor column read at an entry -/

/-- The body's column of divisors from its product block: each row's floored Euclidean norm. -/
def scaleCol (M : FVec Ideal S5000x64 .f32) : FVec Ideal S5000x1 .f32 :=
  maximumf
    (sqrt (shapeCast S5000x1 (multiReduction .add [1] S5000 (mulf M M) 0x00000000#32 reduces_S5000x64_S5000 (.inl rfl) rfl) shapeCasts_S5000_S5000x1))
    (broadcast S5000x1 (Scalar.ofBits (F := Ideal) .f32 0x2B8CBCCC#32))

/-- Row `p` of the divisor column: the square root of the row's sum of squares, floored. -/
theorem scaleCol_apply (M : FVec Ideal S5000x64 .f32) (p : Fin 5000) (u : Fin 1) :
    scaleCol M (ix2 p u)
      = max (Ideal.sqrt (∑ j : Fin 64, M (ix2 p j) * M (ix2 p j))) (Ideal.ofBits .f32 0x2B8CBCCC#32) := by
  unfold scaleCol
  show max (Ideal.sqrt (shapeCast S5000x1 (multiReduction .add [1] S5000 (mulf M M) 0x00000000#32 reduces_S5000x64_S5000 (.inl rfl) rfl) shapeCasts_S5000_S5000x1 (ix2 p u))) (Ideal.ofBits .f32 0x2B8CBCCC#32) = _
  rw [shapeCast_a_a1_apply]
  refine congrArg (fun s => max (Ideal.sqrt s) (Ideal.ofBits .f32 0x2B8CBCCC#32)) ?_
  refine (Ideal.multiReduction_add_single (mulf M M) 0x00000000#32 reduces_S5000x64_S5000 (.inl rfl) rfl (ix1 p)).trans ?_
  refine Finset.sum_congr rfl fun k _ => ?_
  have e : reduces_S5000x64_S5000.lift (ix1 p) k = ix2 p k := funext fun a => Fin.ext (by
    match a with
    | ⟨0, _⟩ => rfl
    | ⟨1, _⟩ => rfl)
  rw [e]
  rfl

/-! ## The stored value -/

/-- The body's stored value is the product block divided row by row by the divisor column, negatives zeroed. -/
theorem pay_eq (x0 : Vec Ideal S5000x64 .f32) (x1 : Vec Ideal S64x64 .f32) :
    k0_pay1 (F := Ideal) x0 x1
      = maximumf (divf (prodBlk x0 x1) (broadcastTo S5000x64 (scaleCol (prodBlk x0 x1)) broadcasts_S5000x1_S5000x64))
          (broadcast S5000x64 (Scalar.ofBits (F := Ideal) .f32 0x00000000#32)) := rfl

/-- Entry `(p, q)` of the stored block is the specification's row function of row `p` of the loaded block. -/
theorem pay_apply (x0 : Vec Ideal S5000x64 .f32) (x1 : Vec Ideal S64x64 .f32) (p : Fin 5000) (q : Fin 64) :
    k0_pay1 (F := Ideal) x0 x1 (ix2 p q) = rowOut (fun k => x0 (ix2 p k)) x1 q := by
  rw [pay_eq]
  show max (Ideal.div (prodBlk x0 x1 (ix2 p q)) (broadcastTo S5000x64 (scaleCol (prodBlk x0 x1)) broadcasts_S5000x1_S5000x64 (ix2 p q)))
      (Ideal.ofBits .f32 0x00000000#32) = _
  rw [broadcastTo_a1_ab_apply, scaleCol_apply]
  unfold rowOut rowScale
  simp only [prodBlk_apply]

end Cert.KernelIdeal.RowValue

end
-- ==== Proof.KernelBlocks.lean ====
/-
  The kernel's result array as one function of the arrays its region finds.  Grid point `t` loads rows
  `5000·t … 5000·t + 4999` of the aggregate and the whole weight matrix, and writes back the same rows of the result;
  by the row lemma each written entry is `RowSpec.rowOut` of its own aggregate row, so what point `t` writes is block
  `t` of `RowSpec.dense` of the aggregate and the weights.  The twenty blocks tile the 100000 rows, so after the run
  the result array is `RowSpec.dense` everywhere.
-/
import proofs.«175908_j11562051961573_1_alg».proof.Proof.Gen.KernelIdeal.Value
import proofs.«175908_j11562051961573_1_alg».proof.Proof.KernelRow

set_option maxRecDepth 16384

noncomputable section

namespace Cert.KernelIdeal.DenseValue

open Cert.KernelIdeal Cert.KernelIdeal.Gen Cert.KernelIdeal.Value Cert.KernelIdeal.RowValue
open Idealize.ShloMosaic Idealize.ShloMosaic.TcCoe Idealize.SL.Sem Idealize.ShloMosaic.ValueIdx Idealize.ShloMosaic.StableHlo
open Idealize.ShloMosaic.Pipeline (Dat)
open Cert.RowSpec

variable (m : (ℓ : Loc nD τ sig) → Buf (Elt Ideal) ℓ) (ρ : Dev nD → PrngReg)

/-! ## One grid point -/

/-- One point's stored block against the whole result: if the loaded rows are rows `n·5000 + p` of `A` and the loaded
    weights are `W`, the stored entry `y` is the entry of `dense A W` at row `n·5000 + y₀`, column `y₁`. -/
theorem point_eq (A : FVec Ideal S100000x64 .f32) (W : FVec Ideal S64x64 .f32)
    (x0 : Vec Ideal S5000x64 .f32) (x1 : Vec Ideal S64x64 .f32) (n : Nat)
    (h0 : ∀ (p : Fin 5000) (k : Fin 64) (r : Fin 100000), r.val = n * 5000 + p.val → x0 (ix2 p k) = A (ix2 r k))
    (h1 : x1 = W) (y : S5000x64.Idx) (i : S100000x64.Idx)
    (hi0 : (i 0).val = n * 5000 + (y 0).val) (hi1 : (i 1).val = (y 1).val) :
    k0_pay1 (F := Ideal) x0 x1 y = dense A W i := by
  obtain ⟨p, q, rfl⟩ : ∃ (p : Fin 5000) (q : Fin 64), y = ix2 p q := ⟨y 0, y 1, eq_ix2 y⟩
  obtain ⟨r, j, rfl⟩ : ∃ (r : Fin 100000) (j : Fin 64), i = ix2 r j := ⟨i 0, i 1, eq_ix2 i⟩
  have hq : j = q := Fin.ext hi1
  subst hq h1
  rw [pay_apply, dense_apply]
  exact congrArg (fun row => rowOut row x1 j) (funext fun k => h0 p k r hi0)

/-! ## The index maps, decided over the twenty points -/

theorem hz : (![0, 0] : Fin 2 → Nat) = fun _ => 0 := funext fun a => by fin_cases a <;> rfl

/-- The aggregate's and the result's block index is the point's number on the row axis and zero on the column axis; the
    weights' block index is zero on both. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## What a point writes back, and the whole array -/

/-- One point, for ANY contents `U` of the buffers at region entry: the stored block (the body's value of the
    aggregate's and the weights' blocks at `t`) is block `t` of `dense` of the aggregate and the weights. -/
theorem stored_eq (c : Dev nD) (U : (b : Ref sig .tc) → Buf (Elt Ideal) ((c : Thread nD τ).loc b)) (t : Fin cfg0.N) :
    (cfg0.win 2).cut (grid0.coords t)
        (k0_pay1 (F := Ideal) (((cfg0.win 0).blk t).view.read (Elt Ideal) (U (Pipeline.arrRef spec0 0)))
          (((cfg0.win 1).blk t).view.read (Elt Ideal) (U (Pipeline.arrRef spec0 1))))
      = ((cfg0.win 2).blk t).view.read (Elt Ideal) (dense (U main_v12) (U main_arg2)) := by
  obtain ⟨e0, e1, e2, e3, e4, e5⟩ := idx_facts t
  -- the aggregate's block at `t` is rows `5000·t + p` of the aggregate
  have h0 : ∀ (p : Fin 5000) (k : Fin 64) (r : Fin 100000), r.val = t.val * 5000 + p.val →
      ((cfg0.win 0).blk t).view.read (Elt Ideal) (U (Pipeline.arrRef spec0 0)) (ix2 p k) = U main_v12 (ix2 r k) := by
    intro p k r hr
    show U main_v12 (((cfg0.win 0).blk t).view.emb (ix2 p k)) = U main_v12 (ix2 r k)
    refine congrArg (U main_v12) (funext fun a => Fin.ext ?_)
    match a with
    | ⟨0, _⟩ => show win0_0.index t (0 : Fin 2) * 5000 + 1 * p.val = r.val; omega
    | ⟨1, _⟩ => show win0_0.index t (1 : Fin 2) * 64 + 1 * k.val = k.val; omega
  -- the weights' block at every point is the whole weight matrix
  have h1 : ((cfg0.win 1).blk t).view.read (Elt Ideal) (U (Pipeline.arrRef spec0 1)) = U main_arg2 := by
    funext z
    show U main_arg2 (((cfg0.win 1).blk t).view.emb z) = U main_arg2 z
    refine congrArg (U main_arg2) (funext fun a => Fin.ext ?_)
    match a with
    | ⟨0, _⟩ => show win0_1.index t (0 : Fin 2) * 64 + 1 * (z 0).val = (z 0).val; omega
    | ⟨1, _⟩ => show win0_1.index t (1 : Fin 2) * 64 + 1 * (z 1).val = (z 1).val; omega
  funext y
  -- entry `y` of the stored block lands at row `5000·t + y₀`, column `y₁` of the result
  have hi0 : ((((cfg0.win 2).blk t).view.emb y) 0).val = t.val * 5000 + (((win0 2).xinj (grid0.coords t) y) 0).val := by
    show win0_2.index t (0 : Fin 2) * 5000 + 1 * (y 0).val = t.val * 5000 + (y 0).val; omega
  have hi1 : ((((cfg0.win 2).blk t).view.emb y) 1).val = (((win0 2).xinj (grid0.coords t) y) 1).val := by
    show win0_2.index t (1 : Fin 2) * 64 + 1 * (y 1).val = (y 1).val; omega
  exact point_eq (U main_v12) (U main_arg2) _ _ t.val h0 h1
    ((win0 2).xinj (grid0.coords t) y) (((cfg0.win 2).blk t).view.emb y) hi0 hi1

/-- WHAT POINT `t` WRITES BACK is block `t` of `dense` of the aggregate and the weights as the region finds them. -/
theorem flushed_eq (c : Dev nD) (t : Fin cfg0.N) :
    (dats m 0 c).flushed 2 t
      = ((cfg0.win 2).blk t).view.read (Elt Ideal) (dense (V m c main_v12) (V m c main_arg2)) := by
  rw [flushed2]
  unfold out0_2
  rw [View.canon_unit_zero hz]
  simp only [View.ld_unit_zero (S := S5000x64) hz, View.ld_unit_zero (S := S64x64) hz]
  unfold iblk
  exact stored_eq c (V m c) t

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- Every index is in some point's block: row `r` is written by point `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE RESULT ARRAY after the run: `dense` of the aggregate and the weights as the region finds them. -/
theorem final (c : Dev nD) : (dats m 0 c).arrAt 2 cfg0.N = dense (V m c main_v12) (V m c main_arg2) :=
  (dats m 0 c).arrAt_eq_of_cover 2 (dense (V m c main_v12) (V m c main_arg2)) (fun t _ => flushed_eq m c t) cover

end Cert.KernelIdeal.DenseValue

end
-- ==== Proof.KernelAggregate.lean ====
/-
  The aggregate the kernel's region finds is what the host operations before it computed from the arguments: edge `e`
  contributes `edge_val e` times row `edge_src e` of `x` (a negative source index counted from the end) to row
  `edge_dst e` of a zero array.
-/
import proofs.«175908_j11562051961573_1_alg».proof.Proof.Gen.KernelIdeal.Frame
import Idealize.ShloMosaic.Lib.StableHlo.Run
import Idealize.ShloMosaic.PureOps.Ideal

noncomputable section

namespace Cert.KernelIdeal.DenseValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The host operations before the region, as one term of the arguments: edge `e` contributes `edge_val e` times
    row `edge_src e` of `x` (a negative source index counted from the end) to row `edge_dst e` of a zero array. -/
def aggregate (x0 : (⟨S100000x64, .f32⟩ : BufTy).Contents (Elt Ideal)) (x1 : (⟨S1000000, .f32⟩ : BufTy).Contents (Elt Ideal))
    (x3 x4 : (⟨S1000000, .i32⟩ : BufTy).Contents (Elt Ideal)) : (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x4)
    (mulf (broadcastInDim S1000000x64 ![0, 1] bcast_S1000000x1_S1000000x64_0_1 (broadcastInDim S1000000x1 ![0] bcast_S1000000_S1000000x1_0 x1))
      (Host.gather gather_S100000x64_S1000000x1_S1000000x64_1_0_n_n_0_1_164 x0
        (broadcastInDim S1000000x1 ![0] bcast_S1000000_S1000000x1_0
          (select (cmpi .slt x3 (broadcastInDim S1000000 ![] bcast_S_S1000000 (constantI S_ 32 0#32)))
            (addi x3 (broadcastInDim S1000000 ![] bcast_S_S1000000 (constantI S_ 32 100000#32))) x3))))

/-- The region finds the aggregate at that term of the launch contents of the arguments. -/
theorem agg_eq (c : Dev nD) :
    (V m c main_v12 : (⟨S100000x64, .f32⟩ : BufTy).Contents (Elt Ideal))
      = aggregate (m ((c : Thread nD τ).loc main_arg0)) (m ((c : Thread nD τ).loc main_arg1))
          (m ((c : Thread nD τ).loc main_arg3)) (m ((c : Thread nD τ).loc main_arg4)) := by
  dsimp only [Gen.V, Gen.hostOps0]
  after_results
  rfl

end Cert.KernelIdeal.DenseValue

end
-- ==== Proof.KernelDense.lean ====
/-
  The kernel's run with its result named: `RowSpec.dense` of the aggregate of the arguments and the weight argument.
-/
import proofs.«175908_j11562051961573_1_alg».proof.Proof.KernelBlocks
import proofs.«175908_j11562051961573_1_alg».proof.Proof.KernelAggregate

set_option maxRecDepth 16384

noncomputable section

namespace Cert.KernelIdeal.DenseValue

open Cert.KernelIdeal Cert.KernelIdeal.Gen Cert.KernelIdeal.Value Cert.KernelIdeal.RowValue
open Idealize.ShloMosaic Idealize.ShloMosaic.TcCoe Idealize.SL.Sem Idealize.ShloMosaic.ValueIdx Idealize.ShloMosaic.StableHlo
open Idealize.ShloMosaic.Pipeline (Dat)
open Cert.RowSpec

variable (m : (ℓ : Loc nD τ sig) → Buf (Elt Ideal) ℓ) (ρ : Dev nD → PrngReg)

/-- The kernel's run with its result named: `dense` of the aggregate of the arguments and the weight argument; the
    arguments unchanged. -/
theorem run : θ_run defs (onTc (τ := τ) (main (F := Ideal))) ⟨m, fun _ => 0, ρ⟩ fun r => ∀ c : Dev nD,
      r.2.mem ((c : Thread nD τ).loc main_v13)
        = dense (aggregate (m ((c : Thread nD τ).loc main_arg0)) (m ((c : Thread nD τ).loc main_arg1))
            (m ((c : Thread nD τ).loc main_arg3)) (m ((c : Thread nD τ).loc main_arg4))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (congrArg₂ dense (agg_eq m c) (V_main_arg2 m c))), (h c).2⟩)
    (run_blocks m ρ)

end Cert.KernelIdeal.DenseValue

end
-- ==== Proof.RefDense.lean ====
/-
  The reference's result, read index by index.  After its aggregate stage (the scatter-add of the scaled gathered
  rows) the reference multiplies by the weight matrix, sums each product row's squares, takes the square root, floors it
  with the same word, divides and rectifies.  Read at entry `(p, q)` every one of those stages reaches only row `p`
  of the aggregate, and the composition is `RowSpec.rowOut` of that row: the reference's result is `RowSpec.dense`
  of its aggregate stage and the weights.  The host's sum starts from a zero, which adds nothing.
-/
import proofs.«175908_j11562051961573_1_alg».proof.Proof.Gen.ReferenceIdeal.Read
import proofs.«175908_j11562051961573_1_alg».proof.Proof.RowSpec

noncomputable section

namespace Cert.ReferenceIdeal.DenseValue

open Cert.ReferenceIdeal Cert.ReferenceIdeal.Gen Cert.ReferenceIdeal.Read Idealize.ShloMosaic Idealize.ShloMosaic.ValueIdx
open Cert.RowSpec

/-! ## Where each stage reads -/

/-- The product at `(p, q)` reads the aggregate at `(p, k)`, -/
theorem lidx_eq (p : Fin 100000) (q k : Fin 64) : lidx_main_v13 (ix2 p q) k = ix2 p k :=
  funext fun a => Fin.ext (by match a with | ⟨0, _⟩ => rfl | ⟨1, _⟩ => rfl)
/-- and the weights at `(k, q)`. -/
theorem ridx_eq (p : Fin 100000) (q k : Fin 64) : ridx_main_v13 (ix2 p q) k = ix2 k q :=
  funext fun a => Fin.ext (by match a with | ⟨0, _⟩ => rfl | ⟨1, _⟩ => rfl)
/-- The divisor broadcast along a row reads the divisor column at `(p, 0)`. -/
theorem col_eq (p : Fin 100000) (q : Fin 64) : idx_main_v17 (ix2 p q) = ix2 p (0 : Fin 1) :=
  funext fun a => Fin.ext (by match a with | ⟨0, _⟩ => rfl | ⟨1, _⟩ => rfl)
/-- The column of sums reads the vector of sums at `p`. -/
theorem row_eq (p : Fin 100000) (u : Fin 1) : idx_main_call0_v2 (ix2 p u) = ix1 p :=
  funext fun a => Fin.ext (by match a with | ⟨0, _⟩ => rfl)
/-- The sum at `p` runs over the squares at `(p, k)`. -/
theorem sq_eq (p : Fin 100000) (k : Fin 64) : idx_main_call0_v1 (ix1 p) k = ix2 p k :=
  funext fun a => Fin.ext (by match a with | ⟨0, _⟩ => rfl | ⟨1, _⟩ => rfl)

/-! ## The stages at an entry -/

/-- The product stage at `(p, q)`: row `p` of the aggregate stage times column `q` of the weights. -/
theorem prod_apply (x0 : (⟨S100000x64, .f32⟩ : BufTy).Contents (Elt Ideal)) (x1 : (⟨S1000000, .f32⟩ : BufTy).Contents (Elt Ideal)) (x2 : (⟨S64x64, .f32⟩ : BufTy).Contents (Elt Ideal)) (x3 x4 : (⟨S1000000, .i32⟩ : BufTy).Contents (Elt Ideal)) (p : Fin 100000) (q : Fin 64) :
    val_main_v13 (F := Ideal) x0 x1 x2 x3 x4 (ix2 p q)
      = rowProd (fun k => val_main_v12 (F := Ideal) x0 x1 x3 x4 (ix2 p k)) x2 q := by
  rw [val_main_v13_apply]
  unfold rowProd
  refine Finset.sum_congr rfl fun k _ => ?_
  rw [lidx_eq, ridx_eq]

/-- The floored-norm stage at `(p, 0)`: the divisor of row `p`. -/
theorem scale_apply (x0 : (⟨S100000x64, .f32⟩ : BufTy).Contents (Elt Ideal)) (x1 : (⟨S1000000, .f32⟩ : BufTy).Contents (Elt Ideal)) (x2 : (⟨S64x64, .f32⟩ : BufTy).Contents (Elt Ideal)) (x3 x4 : (⟨S1000000, .i32⟩ : BufTy).Contents (Elt Ideal)) (p : Fin 100000) (u : Fin 1) :
    val_main_v16 (F := Ideal) x0 x1 x2 x3 x4 (ix2 p u)
      = rowScale (fun k => val_main_v12 (F := Ideal) x0 x1 x3 x4 (ix2 p k)) x2 := by
  rw [val_main_v16_apply, val_main_v14_apply, val_main_call0_v2_apply, row_eq, val_main_call0_v1_apply,
    val_main_v15_apply, val_main_cst_1_apply, val_main_call0_cst_apply]
  unfold rowScale
  simp only [Ideal.maximumf_def, Ideal.hostUnary_sqrt_def, Ideal.ofBits_def, Ideal.ofBits_zero_f32, zero_add]
  refine congrArg (fun s => max (Ideal.sqrt s) (Ideal.ofBits .f32 0x2B8CBCCC#32)) (Finset.sum_congr rfl fun k _ => ?_)
  rw [sq_eq, val_main_call0_v0_apply, prod_apply]
  rfl

/-- The reference's result is the specification's function of its aggregate stage and the weights. -/
theorem dense_eq (x0 : (⟨S100000x64, .f32⟩ : BufTy).Contents (Elt Ideal)) (x1 : (⟨S1000000, .f32⟩ : BufTy).Contents (Elt Ideal)) (x2 : (⟨S64x64, .f32⟩ : BufTy).Contents (Elt Ideal)) (x3 x4 : (⟨S1000000, .i32⟩ : BufTy).Contents (Elt Ideal)) :
    val_main_v19 (F := Ideal) x0 x1 x2 x3 x4 = dense (val_main_v12 (F := Ideal) x0 x1 x3 x4) x2 := by
  funext i
  obtain ⟨p, q, rfl⟩ : ∃ (p : Fin 100000) (q : Fin 64), i = ix2 p q := ⟨i 0, i 1, eq_ix2 i⟩
  rw [dense_apply, val_main_v19_apply, val_main_v18_apply, val_main_v17_apply, col_eq, scale_apply, prod_apply,
    val_main_call1_v0_apply, val_main_call1_cst_apply]
  simp only [rowOut, Ideal.maximumf_def, Ideal.hostDivf_def, Ideal.ofBits_def]

end Cert.ReferenceIdeal.DenseValue

end
-- ==== Proof.lean ====
/-
  The certificate for the graph-convolution layer `relu (normalize (segment_sum (edge_val · x[edge_src], edge_dst) · W))`.

  Both programs begin with the same host operations: gather the source rows of `x`, scale each by its edge value, and
  scatter-add them by destination into a zero array; this aggregate is one and the same term of the arguments on both
  sides.  The kernel then computes the dense stage block by block (5000 rows per grid point: product with the weights,
  row norms, floor, division, rectification), the reference computes it on whole arrays.  Read at the extended reals
  both are `RowSpec.dense` of the aggregate and the weights: entry `(r, j)` is `max (P r j / max (√(∑ⱼ' (P r j')²)) ε) 0`
  with `P r j = ∑ₖ agg r k · W k j` and `ε` the same word on both sides.  The narrowing of the kernel's product operands
  to sixteen bits is the identity there, the product into a zero accumulator is the plain sum, and the host's sum from a
  zero initial value is the plain sum; nothing else differs, so no finiteness of the inputs is used.

  The three frames are the generated ones (the reference's from its generated run); the idealization rewrote nothing.
-/
import proofs.«175908_j11562051961573_1_alg».proof.Defs
import proofs.«175908_j11562051961573_1_alg».proof.Proof.Gen.Kernel
import proofs.«175908_j11562051961573_1_alg».proof.Proof.Gen.Kernel.Skeleton
import proofs.«175908_j11562051961573_1_alg».proof.Proof.Gen.Kernel.Launch
import proofs.«175908_j11562051961573_1_alg».proof.Proof.Gen.Kernel.Points
import proofs.«175908_j11562051961573_1_alg».proof.Proof.Gen.Kernel.Frame
import proofs.«175908_j11562051961573_1_alg».proof.Proof.Gen.KernelIdeal
import proofs.«175908_j11562051961573_1_alg».proof.Proof.Gen.KernelIdeal.Skeleton
import proofs.«175908_j11562051961573_1_alg».proof.Proof.Gen.KernelIdeal.Launch
import proofs.«175908_j11562051961573_1_alg».proof.Proof.Gen.KernelIdeal.Points
import proofs.«175908_j11562051961573_1_alg».proof.Proof.Gen.KernelIdeal.Frame
import proofs.«175908_j11562051961573_1_alg».proof.Proof.Gen.KernelIdeal.Value
import proofs.«175908_j11562051961573_1_alg».proof.Proof.Gen.ReferenceIdeal
import proofs.«175908_j11562051961573_1_alg».proof.Proof.Gen.ReferenceIdeal.Run
import proofs.«175908_j11562051961573_1_alg».proof.Proof.Gen.ReferenceIdeal.Read
import proofs.«175908_j11562051961573_1_alg».proof.Proof.Gen.Pre_finite_inputs
import proofs.«175908_j11562051961573_1_alg».proof.Proof.KernelDense
import proofs.«175908_j11562051961573_1_alg».proof.Proof.RefDense
import Idealize.ShloMosaic.Adequacy
import Idealize.ShloMosaic.Init

noncomputable section

namespace Cert.Proof

open Idealize.ShloMosaic Idealize.ShloMosaic.TcCoe Idealize.SL.Sem

/-- The aggregate is one term on both sides: the same host operations over the same dimension records, spelt once in
    each program's vocabulary. -/
theorem aggregate_eq (x0 : (⟨Cert.KernelIdeal.S100000x64, .f32⟩ : BufTy).Contents (Elt Ideal))
    (x1 : (⟨Cert.KernelIdeal.S1000000, .f32⟩ : BufTy).Contents (Elt Ideal))
    (x3 x4 : (⟨Cert.KernelIdeal.S1000000, .i32⟩ : BufTy).Contents (Elt Ideal)) :
    Cert.ReferenceIdeal.Read.val_main_v12 (F := Ideal) x0 x1 x3 x4 = Cert.KernelIdeal.DenseValue.aggregate x0 x1 x3 x4 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are `dense` of the aggregate of the arguments and the weight argument. -/
theorem algebraic : Cert.algebraic_KernelIdeal_ReferenceIdeal := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.DenseValue.dense_eq,
    (hagree c).1, (hagree c).2.1, (hagree c).2.2.1, (hagree c).2.2.2.1, (hagree c).2.2.2.2, aggregate_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
